-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S40x128 1) : IVec S_ 1 :=
  let main_c_5 : IVec S_ 1 := constantI S_ 1 1#1
  let main_v17 : IVec S_ 1 := (fun x v => Host.reduce IntOp.andi x v reducesTo_S40x128_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S40x128 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S40x128 .f32 := Host.absf main_arg4
  let main_cst_4 : FVec F S_ .f32 := constant S_ .f32 0x7F800000#32
  let main_v15 : FVec F S40x128 .f32 := broadcastInDim S40x128 ![] bcast_S_S40x128 main_cst_4
  let main_v16 : IVec S40x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S5000x128 : Shape := ⟨2, ![5000, 128]⟩
abbrev S1x128 : Shape := ⟨2, ![1, 128]⟩
abbrev S128x40 : Shape := ⟨2, ![128, 40]⟩
abbrev S50000x40 : Shape := ⟨2, ![50000, 40]⟩
abbrev S5000x40 : Shape := ⟨2, ![5000, 40]⟩
abbrev S1x40 : Shape := ⟨2, ![1, 40]⟩

abbrev nBuf : Space → Nat
  | .hbm => 118
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S40x128, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S50000, .i32⟩
  | .hbm, ⟨65, _⟩ => ⟨S850000, .i32⟩
  | .hbm, ⟨66, _⟩ => ⟨S850000, .i32⟩
  | .hbm, ⟨67, _⟩ => ⟨S_, .f32⟩
  | .hbm, ⟨68, _⟩ => ⟨S850000, .f32⟩
  | .hbm, ⟨69, _⟩ => ⟨S_, .f32⟩
  | .hbm, ⟨70, _⟩ => ⟨S50000, .f32⟩
  | .hbm, ⟨71, _⟩ => ⟨S850000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .i1⟩
  | .hbm, ⟨76, _⟩ => ⟨S50000, .f32⟩
  | .hbm, ⟨77, _⟩ => ⟨S_, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000, .f32⟩
  | .hbm, ⟨99, _⟩ => ⟨S850000, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x128, .f32⟩
  | .hbm, ⟨109, _⟩ => ⟨S850000x1, .f32⟩
  | .hbm, ⟨110, _⟩ => ⟨S850000x128, .f32⟩
  | .hbm, ⟨111, _⟩ => ⟨S850000x128, .f32⟩
  | .hbm, ⟨112, _⟩ => ⟨S_, .f32⟩
  | .hbm, ⟨113, _⟩ => ⟨S50000x128, .f32⟩
  | .hbm, ⟨114, _⟩ => ⟨S850000x1, .i32⟩
  | .hbm, ⟨115, _⟩ => ⟨S50000x128, .f32⟩
  | .hbm, ⟨116, _⟩ => ⟨S128x40, .f32⟩
  | .hbm, ⟨117, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x40, .f32⟩
  | .local _ .vmem, ⟨9, _⟩ => ⟨S40, .f32⟩
  | .local _ .vmem, ⟨10, _⟩ => ⟨S5000x40, .f32⟩
  | .local _ .vmem, ⟨11, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_c_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  transposes_S40x128_S128x40_1_0 : S40x128.Transposes [1, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40.size a ≤ S40.size a
  hwx1_2 : ∀ i : grid1.Coords, EltTy.bits .f32 = 32 ∨ (Rect.block (s := S40) S40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v83) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S40x128, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S128x40, .f32⟩
  | .hbm, ⟨123, _⟩ => ⟨S50000x40, .f32⟩
  | .hbm, ⟨124, _⟩ => ⟨S1x40, .f32⟩
  | .hbm, ⟨125, _⟩ => ⟨S50000x40, .f32⟩
  | .hbm, ⟨126, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Propagate.lean ====
/-
  The graph propagation both programs run on the host, named once.

  With self-loops appended to the edge list, the propagation of a feature matrix `x` along the edges `e` gathers the
  source node's row for every edge, scales it by the product of the inverse square roots of the two endpoint degrees,
  and adds it into the destination node's row. Both programs run it twice with the same operations — first on the input
  features, then on the hidden layer's result — so it is named here as ONE function of the feature matrix and the edge
  array, over the reference's own stages, and never opened: the first stretch of the reference IS it, and the second
  stretch is it again at the hidden layer's result, stage by stage (each stage of the second stretch is the same
  operation of the same operands as its counterpart in the first).
-/
import proofs.«171864_j40578851012868_1_alg».proof.Proof.RefRead

noncomputable section

namespace Cert.Propagate

open Cert.ReferenceIdeal Cert.ReferenceIdeal.ReadP Idealize.ShloMosaic

variable {F : FTy → Type} [FloatOps F]

/-- A feature matrix: one row of 128 features per node. -/
abbrev Feat (F : FTy → Type) : Type := (⟨S50000x128, .f32⟩ : BufTy).Contents (Elt F)
/-- The edge array: a row of source nodes over a row of destination nodes. -/
abbrev Edges (F : FTy → Type) : Type := (⟨S2x800000, .i32⟩ : BufTy).Contents (Elt F)

/-- The normalized propagation of `x` along `e` (self-loops appended): into a zero matrix, at each edge's destination
    row, the edge's source row of `x` times the edge's normalization weight. -/
def propagate (x : Feat F) (e : Edges F) : Feat F :=
  Host.scatterAdd scatter_S50000x128_S850000x1_S850000x128_1_0_0_1 (val_main_v40 (F := F)) (val_main_v41 (F := F) e)
    (mulf (Host.gather gather_S50000x128_S850000x1_S850000x128_1_0_n_n_0_1_1128 x (val_main_v35 (F := F) e))
      (val_main_v38 (F := F) e))

/-- The reference's first aggregation is the propagation of the input features. -/
theorem first (x0 : Feat F) (x1 : Edges F) : val_main_v42 (F := F) x0 x1 = propagate x0 x1 := rfl

/-! ## The second stretch, stage by stage, is the first -/

theorem zeros_eq : val_main_v85 (F := F) = val_main_v40 (F := F) := rfl
theorem dst_eq (e : Edges F) : val_main_v51 (F := F) e = val_main_v6 (F := F) e := rfl
theorem src_eq (e : Edges F) : val_main_v50 (F := F) e = val_main_v5 (F := F) e := rfl
theorem dstIdx_eq (e : Edges F) : val_main_v86 (F := F) e = val_main_v41 (F := F) e := by
  unfold val_main_v86 val_main_v41; rw [dst_eq]
theorem deg_eq (e : Edges F) : val_main_v55 (F := F) e = val_main_v10 (F := F) e := rfl
theorem dinv_eq (e : Edges F) : val_main_v59 (F := F) e = val_main_v14 (F := F) e := rfl
theorem srcIdx_eq (e : Edges F) : val_main_v80 (F := F) e = val_main_v35 (F := F) e := rfl
theorem norm_eq (e : Edges F) : val_main_v74 (F := F) e = val_main_v29 (F := F) e := rfl
theorem normMat_eq (e : Edges F) : val_main_v83 (F := F) e = val_main_v38 (F := F) e := by
  unfold val_main_v83 val_main_v38 val_main_v82 val_main_v37; rw [norm_eq]

/-- The reference's second aggregation is the propagation of the hidden layer's result. -/
theorem second (x0 : Feat F) (x1 : Edges F) (x2 : (⟨S128x128, .f32⟩ : BufTy).Contents (Elt F))
    (x3 : (⟨S128, .f32⟩ : BufTy).Contents (Elt F)) :
    val_main_v87 (F := F) x0 x1 x2 x3 = propagate (val_main_v48 (F := F) x0 x1 x2 x3) x1 := by
  unfold val_main_v87 val_main_v84 val_main_v81 propagate
  rw [zeros_eq, dstIdx_eq, srcIdx_eq, normMat_eq]

end Cert.Propagate

end
-- ==== Proof.LibRowwise.lean ====
/-
  Matrix functions that treat every row alike, over the extended reals, and the printed operations that compute them.

  A network layer applied to a batch of rows — a product with a weight matrix, a bias row added to every row, an
  activation applied entry by entry, three matrices laid side by side — computes row `p` of its result from row `p` of its
  operands alone. Such a function is stated here ONCE for any number of rows `M`; `rowsAt` takes a band of `R` consecutive
  rows of a matrix, and every function of this file commutes with it by unfolding. So a computation carried out band by
  band and the same computation carried out on the whole matrix are instances of one function, and the band of the
  whole result is the result on the band.

  The second half reads the printed operations as these functions, at any number of rows: the host's matrix product
  and the block product into a zero accumulator are `prod` (for any dimension-number record that is the plain one), a
  bias laid along every row is `rowBias` whether it was broadcast from a vector or from a one-row matrix, and three
  matrices concatenated along the columns are `join3`.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

open scoped BigOperators

namespace Cert.Lib.Rowwise

open Idealize.ShloMosaic Idealize.ShloMosaic.ValueIdx

/-- An `M × n` matrix of extended reals. -/
abbrev Mat (M n : ℕ) : Type := (⟨2, ![M, n]⟩ : Shape).Idx → EReal
/-- A vector of `n` extended reals. -/
abbrev RowV (n : ℕ) : Type := (⟨1, ![n]⟩ : Shape).Idx → EReal

/-! ## Bands of rows -/

/-- Rows `o, …, o + R - 1` of a matrix, as an `R`-row matrix. -/
def rowsAt {α : Type} {M n : ℕ} (R o : ℕ) (h : o + R ≤ M) (X : (⟨2, ![M, n]⟩ : Shape).Idx → α) :
    (⟨2, ![R, n]⟩ : Shape).Idx → α :=
  fun j => X (ix2 (⟨o + (j 0).val, by have := idx2_lt0 j; omega⟩ : Fin M) (j 1 : Fin n))

theorem rowsAt_apply {α : Type} {M n : ℕ} (R o : ℕ) (h : o + R ≤ M) (X : (⟨2, ![M, n]⟩ : Shape).Idx → α)
    (p : Fin R) (q : Fin n) : rowsAt R o h X (ix2 p q) = X (ix2 (⟨o + p.val, by omega⟩ : Fin M) q) := rfl

/-! ## Functions that treat every row alike -/

/-- The matrix product: entry `(p, q)` is the sum over `k` of `x p k · w k q`. -/
def prod {M K N : ℕ} (x : Mat M K) (w : Mat K N) : Mat M N :=
  fun i => ∑ k : Fin K, x (ix2 (i 0 : Fin M) k) * w (ix2 k (i 1 : Fin N))

/-- A vector laid along every row. -/
def rowBias {M N : ℕ} (b : RowV N) : Mat M N := fun i => b (ix1 (i 1 : Fin N))

/-- A dense layer: the product with the weights plus the bias row. -/
def dense {M K N : ℕ} (x : Mat M K) (w : Mat K N) (b : RowV N) : Mat M N := fun i => prod x w i + rowBias b i

/-- The logistic function entry by entry. -/
def sigm {M N : ℕ} (x : Mat M N) : Mat M N := fun i => Ideal.logistic (x i)

/-- `x · logistic x` entry by entry. -/
def silu {M N : ℕ} (x : Mat M N) : Mat M N := fun i => x i * Ideal.logistic (x i)

/-- The product entry by entry. -/
def hmul {M N : ℕ} (x y : Mat M N) : Mat M N := fun i => x i * y i

/-- The sum entry by entry. -/
def hadd {M N : ℕ} (x y : Mat M N) : Mat M N := fun i => x i + y i

/-- Three `n`-column matrices side by side. -/
def join3 {M n m : ℕ} (hm : m = n + n + n) (a b c : Mat M n) : Mat M m :=
  fun i =>
    if h1 : (i 1).val < n then a (ix2 (i 0 : Fin M) (⟨(i 1).val, h1⟩ : Fin n))
    else if h2 : (i 1).val < n + n then b (ix2 (i 0 : Fin M) (⟨(i 1).val - n, by omega⟩ : Fin n))
    else c (ix2 (i 0 : Fin M) (⟨(i 1).val - (n + n), by have := idx2_lt1 i; omega⟩ : Fin n))

section Bands
variable {M K N n m : ℕ} (R o : ℕ) (h : o + R ≤ M)

theorem rowsAt_prod (x : Mat M K) (w : Mat K N) : rowsAt R o h (prod x w) = prod (rowsAt R o h x) w := rfl
theorem rowsAt_rowBias (b : RowV N) : rowsAt R o h (rowBias (M := M) b) = rowBias b := rfl
theorem rowsAt_dense (x : Mat M K) (w : Mat K N) (b : RowV N) :
    rowsAt R o h (dense x w b) = dense (rowsAt R o h x) w b := rfl
theorem rowsAt_sigm (x : Mat M N) : rowsAt R o h (sigm x) = sigm (rowsAt R o h x) := rfl
theorem rowsAt_silu (x : Mat M N) : rowsAt R o h (silu x) = silu (rowsAt R o h x) := rfl
theorem rowsAt_hmul (x y : Mat M N) : rowsAt R o h (hmul x y) = hmul (rowsAt R o h x) (rowsAt R o h y) := rfl
theorem rowsAt_hadd (x y : Mat M N) : rowsAt R o h (hadd x y) = hadd (rowsAt R o h x) (rowsAt R o h y) := rfl
theorem rowsAt_join3 (hm : m = n + n + n) (a b c : Mat M n) :
    rowsAt R o h (join3 hm a b c) = join3 hm (rowsAt R o h a) (rowsAt R o h b) (rowsAt R o h c) := rfl

end Bands

/-! ## The printed operations, read as these functions -/

section Ops
variable {M K N n m : ℕ}

/-- A change of float format is the identity on the extended reals. -/
theorem truncf_id {s : Shape} {φ ψ : FTy} (x : FVec Ideal s φ) (h : ψ.bits < φ.bits) : truncf ψ x h = x := rfl

/-- The host's product with the plain dimension numbers is the matrix product. -/
theorem hostDot_eq_prod (d : DotDims ⟨2, ![M, K]⟩ ⟨2, ![K, N]⟩ ⟨2, ![M, N]⟩) (hd : d = DotDims.plain M K N)
    (prec : Option ContractPrecision) {φ₁ φ₂ : FTy} (x : FVec Ideal ⟨2, ![M, K]⟩ φ₁) (w : FVec Ideal ⟨2, ![K, N]⟩ φ₂) :
    Host.dotGeneral d prec x w = prod x w := by
  subst hd
  funext i
  obtain ⟨p, q, rfl⟩ : ∃ (p : Fin M) (q : Fin N), i = ix2 p q := ⟨i 0, i 1, eq_ix2 i⟩
  exact StackMember.dotGeneral_plain_apply prec x w p q

/-- The block product into a zero accumulator, with the plain dimension numbers, is the matrix product. -/
theorem matmul_eq_prod (d : DotDims ⟨2, ![M, K]⟩ ⟨2, ![K, N]⟩ ⟨2, ![M, N]⟩) (hd : d = DotDims.plain M K N)
    (prec : Option ContractPrecision) {φ₁ φ₂ : FTy} (x : FVec Ideal ⟨2, ![M, K]⟩ φ₁) (w : FVec Ideal ⟨2, ![K, N]⟩ φ₂) :
    matmul d prec x w (constant ⟨2, ![M, N]⟩ .f32 0x00000000#32) = prod x w := by
  rw [matmul_zero_eq_dotGeneral]
  exact hostDot_eq_prod d hd prec x w

/-- A one-row matrix broadcast down the rows is its row laid along every row. -/
theorem broadcastTo_oneRow (y : (⟨2, ![1, N]⟩ : Shape).Idx → EReal)
    (hb : (⟨2, ![1, N]⟩ : Shape).Broadcasts ⟨2, ![M, N]⟩) :
    broadcastTo ⟨2, ![M, N]⟩ y hb = rowBias (N := N) (fun i : (⟨1, ![N]⟩ : Shape).Idx => y (ix2 (0 : Fin 1) (i 0 : Fin N))) := by
  funext i
  refine broadcastTo_apply y hb i (ix2 (0 : Fin 1) (i 1 : Fin N)) ?_
  intro a
  match a with
  | ⟨0, _⟩ => rfl
  | ⟨1, _⟩ =>
    show (i 1).val = if N = 1 then 0 else (i 1).val
    split
    · have := idx2_lt1 i; omega
    · rfl

/-- A vector reshaped to one row, read back as a vector, is the vector. -/
theorem oneRow_shapeCast (b : RowV N) (hs : (⟨1, ![N]⟩ : Shape).ShapeCasts ⟨2, ![1, N]⟩) :
    (fun i : (⟨1, ![N]⟩ : Shape).Idx => shapeCast ⟨2, ![1, N]⟩ b hs (ix2 (0 : Fin 1) (i 0 : Fin N))) = b := by
  funext i
  refine (shapeCast_apply b hs (ix2 (0 : Fin 1) (i 0 : Fin N)) (ix1 (i 0 : Fin N)) ?_).trans ?_
  · rw [Shape.rowMajor_val_two, Shape.rowMajor_val_one]
    show (i 0).val = 0 * N + (i 0).val
    omega
  · exact congrArg b (eq_ix1 i).symm

/-- The host's way to lay a vector along every row: to one row along axis 1, then down the rows. -/
theorem hostBias_eq (b : RowV N) (h1 : (⟨1, ![N]⟩ : Shape).BroadcastsInDim ⟨2, ![1, N]⟩ ![1])
    (h2 : (⟨2, ![1, N]⟩ : Shape).BroadcastsInDim ⟨2, ![M, N]⟩ ![0, 1]) :
    broadcastInDim ⟨2, ![M, N]⟩ ![0, 1] h2 (broadcastInDim ⟨2, ![1, N]⟩ ![1] h1 b) = rowBias b := by
  funext i
  obtain ⟨p, q, rfl⟩ : ∃ (p : Fin M) (q : Fin N), i = ix2 p q := ⟨i 0, i 1, eq_ix2 i⟩
  rw [broadcastInDim_oneRow_apply h2 _ p q]
  refine broadcastInDim_apply ![1] h1 b (ix2 (0 : Fin 1) q) (ix1 q) ?_
  intro a
  match a with
  | ⟨0, _⟩ =>
    show q.val = if N = 1 then 0 else q.val
    split
    · have := q.isLt; omega
    · rfl

/-- The float pattern of one. -/
theorem ofBits_one : Ideal.ofBits .f32 0x3F800000#32 = 1 := by
  simp [Ideal.ofBits, Ideal.ieee, -EReal.coe_mul]; norm_num

/-- The host's expansion of the logistic function — one over one plus the exponential of the negation, the ones
    broadcast from a constant — is the logistic function entry by entry. -/
theorem hostSigm_eq (x : Mat M N) (h : (⟨0, ![]⟩ : Shape).BroadcastsInDim ⟨2, ![M, N]⟩ ![])
    (h' : (⟨0, ![]⟩ : Shape).BroadcastsInDim ⟨2, ![M, N]⟩ ![]) :
    Host.divf (broadcastInDim ⟨2, ![M, N]⟩ ![] h (constant (F := Ideal) ⟨0, ![]⟩ .f32 0x3F800000#32))
      (addf (broadcastInDim ⟨2, ![M, N]⟩ ![] h' (constant (F := Ideal) ⟨0, ![]⟩ .f32 0x3F800000#32)) (Host.exp (Host.negf x)))
      = sigm x := by
  funext i
  show Ideal.div (Ideal.ofBits .f32 0x3F800000#32) (Ideal.ofBits .f32 0x3F800000#32 + Ideal.exp (-(x i))) = Ideal.logistic (x i)
  rw [ofBits_one]
  rfl

/-- The same with the inner sum already read entry by entry. -/
theorem hostSigm_eq' (x : Mat M N) (h : (⟨0, ![]⟩ : Shape).BroadcastsInDim ⟨2, ![M, N]⟩ ![])
    (h' : (⟨0, ![]⟩ : Shape).BroadcastsInDim ⟨2, ![M, N]⟩ ![]) :
    Host.divf (broadcastInDim ⟨2, ![M, N]⟩ ![] h (constant (F := Ideal) ⟨0, ![]⟩ .f32 0x3F800000#32))
      (hadd (broadcastInDim ⟨2, ![M, N]⟩ ![] h' (constant (F := Ideal) ⟨0, ![]⟩ .f32 0x3F800000#32))
        (Host.exp (F := Ideal) (φ := .f32) (Host.negf x)))
      = sigm x := hostSigm_eq x h h'

theorem mulf_eq_hmul (x y : Mat M N) : mulf (F := Ideal) (φ := .f32) x y = hmul x y := rfl
theorem addf_eq_hadd (x y : Mat M N) : addf (F := Ideal) (φ := .f32) x y = hadd x y := rfl
theorem logistic_eq_sigm (x : Mat M N) : logistic (F := Ideal) (φ := .f32) x = sigm x := rfl
theorem hmul_sigm (x : Mat M N) : hmul x (sigm x) = silu x := rfl
theorem hadd_rowBias (x : Mat M K) (w : Mat K N) (b : RowV N) : hadd (prod x w) (rowBias b) = dense x w b := rfl

/-- Three matrices concatenated along the columns are the three side by side. -/
theorem concat3_eq_join3 (hm : m = n + n + n) (a b c : Mat M n)
    (h : Shape.Concatenates ([(⟨⟨2, ![M, n]⟩, a⟩ : (s : Shape) × (s.Idx → EReal)), ⟨⟨2, ![M, n]⟩, b⟩, ⟨⟨2, ![M, n]⟩, c⟩].map (·.1))
      ⟨2, ![M, m]⟩ 1) :
    concatenate ⟨2, ![M, m]⟩ 1 [⟨⟨2, ![M, n]⟩, a⟩, ⟨⟨2, ![M, n]⟩, b⟩, ⟨⟨2, ![M, n]⟩, c⟩] h = join3 hm a b c := by
  funext i
  have hi1 := idx2_lt1 i
  unfold join3
  split
  · rename_i h1
    refine concatenate_apply_piece (1 : Fin 2) _ h i 0 (by show (0 : ℕ) < 3; omega) ⟨2, ![M, n]⟩ a rfl rfl 0 rfl
      (ix2 (i 0 : Fin M) (⟨(i 1).val, h1⟩ : Fin n)) ?_ ?_
    · intro b hb
      match b with
      | ⟨0, _⟩ => rfl
      | ⟨1, _⟩ => exact absurd rfl hb
    · show 0 + (i 1).val = (i 1).val
      omega
  · rename_i h1
    split
    · rename_i h2
      refine concatenate_apply_piece (1 : Fin 2) _ h i 1 (by show (1 : ℕ) < 3; omega) ⟨2, ![M, n]⟩ b rfl rfl n rfl
        (ix2 (i 0 : Fin M) (⟨(i 1).val - n, by omega⟩ : Fin n)) ?_ ?_
      · intro b hb
        match b with
        | ⟨0, _⟩ => rfl
        | ⟨1, _⟩ => exact absurd rfl hb
      · show n + ((i 1).val - n) = (i 1).val
        omega
    · rename_i h2
      refine concatenate_apply_piece (1 : Fin 2) _ h i 2 (by show (2 : ℕ) < 3; omega) ⟨2, ![M, n]⟩ c rfl rfl (n + n) rfl
        (ix2 (i 0 : Fin M) (⟨(i 1).val - (n + n), by omega⟩ : Fin n)) ?_ ?_
      · intro b hb
        match b with
        | ⟨0, _⟩ => rfl
        | ⟨1, _⟩ => exact absurd rfl hb
      · show n + n + ((i 1).val - (n + n)) = (i 1).val
        omega

end Ops

end Cert.Lib.Rowwise

end
-- ==== Proof.Layers.lean ====
/-
  The two dense layers of a two-layer graph convolution, stated once for any number of rows.

  Each layer is applied to a matrix of aggregated node features, one node per row: the hidden layer is
  `max (x · w + b, 0)` entry by entry, the output layer is `x · w + b`. Both compute row `p` of the result from row
  `p` of `x` alone, so a band of rows of the result is the layer applied to the same band of `x`: a layer computed
  band by band is the layer computed on the whole matrix. The product, the bias row and the dense layer are those of
  the row-wise library; this file adds the rectifier and reads the two printed spellings of "maximum with a zero
  splat" as it.
-/
import proofs.«171864_j40578851012868_1_alg».proof.Proof.LibRowwise

noncomputable section

open scoped BigOperators

namespace Cert.Layers

open Idealize.ShloMosaic Idealize.ShloMosaic.ValueIdx Cert.Lib.Rowwise

/-- The rectifier entry by entry: the larger of the entry and zero (zero spelled by its float pattern). -/
def relu {M N : ℕ} (x : Mat M N) : Mat M N := fun i => max (x i) (Ideal.ofBits .f32 0x00000000#32)

/-- The hidden layer: the rectifier of the dense layer. -/
def hidden {M K N : ℕ} (x : Mat M K) (w : Mat K N) (b : RowV N) : Mat M N := relu (dense x w b)

section Bands
variable {M K N : ℕ} (R o : ℕ) (h : o + R ≤ M)

/-- A band of rows of the rectified matrix is the rectified band. -/
theorem rowsAt_relu (x : Mat M N) : rowsAt R o h (relu x) = relu (rowsAt R o h x) := rfl

/-- A band of rows of the hidden layer's result is the hidden layer of the same band of its input. -/
theorem rowsAt_hidden (x : Mat M K) (w : Mat K N) (b : RowV N) :
    rowsAt R o h (hidden x w b) = hidden (rowsAt R o h x) w b := rfl

end Bands

section Entries
variable {M K N : ℕ}

/-- Entry `(p, q)` of the dense layer: row `p` of `x` against column `q` of `w`, plus entry `q` of the bias. -/
theorem dense_apply (x : Mat M K) (w : Mat K N) (b : RowV N) (p : Fin M) (q : Fin N) :
    dense x w b (ix2 p q) = ∑ k : Fin K, x (ix2 p k) * w (ix2 k q) + b (ix1 q) := rfl

/-- Entry `(p, q)` of the hidden layer: the larger of the dense layer's entry and zero. -/
theorem hidden_apply (x : Mat M K) (w : Mat K N) (b : RowV N) (p : Fin M) (q : Fin N) :
    hidden x w b (ix2 p q)
      = max (∑ k : Fin K, x (ix2 p k) * w (ix2 k q) + b (ix1 q)) (Ideal.ofBits .f32 0x00000000#32) := rfl

/-- The maximum with a splat of the zero scalar is the rectifier. -/
theorem maximumf_splat_zero (x : Mat M N) :
    maximumf (F := Ideal) (φ := .f32) x (broadcast ⟨2, ![M, N]⟩ (Scalar.ofBits (F := Ideal) .f32 0x00000000#32)) = relu x := rfl

/-- The maximum with the zero constant broadcast from a scalar array is the rectifier. -/
theorem maximumf_host_zero (x : Mat M N) (h : (⟨0, ![]⟩ : Shape).BroadcastsInDim ⟨2, ![M, N]⟩ ![]) :
    maximumf (F := Ideal) (φ := .f32) x
      (broadcastInDim ⟨2, ![M, N]⟩ ![] h (constant (F := Ideal) ⟨0, ![]⟩ .f32 0x00000000#32)) = relu x := rfl

end Entries

end Cert.Layers

end
-- ==== Proof.RefValue.lean ====
/-
  The reference's result as the two-layer network over the propagation.

  The reference computes, in order: the propagation of the input features; the hidden layer of that aggregate (a product
  with the transposed first weight matrix, the first bias along every row, the rectifier); the propagation of the hidden
  layer's result; the output layer of that aggregate (a product with the transposed second weight matrix plus the second
  bias). Each dense stage is read as the row-wise layer — the host's product with the plain dimension numbers is the
  matrix product, a vector broadcast to one row and then down the rows is the vector along every row, the maximum with a
  broadcast zero is the rectifier — and each propagation is the named one.
-/
import proofs.«171864_j40578851012868_1_alg».proof.Proof.Propagate
import proofs.«171864_j40578851012868_1_alg».proof.Proof.Layers

noncomputable section

namespace Cert.ReferenceIdeal.RefValue

open Cert.ReferenceIdeal Cert.ReferenceIdeal.ReadP Idealize.ShloMosaic
open Cert.Lib.Rowwise Cert.Layers Cert.Propagate

/-- The two-layer network: the output layer of the propagated hidden layer of the propagated features, the weight
    matrices entering transposed. -/
def net (x0 : Feat Ideal) (x1 : Edges Ideal) (x2 : (⟨S128x128, .f32⟩ : BufTy).Contents (Elt Ideal))
    (x3 : (⟨S128, .f32⟩ : BufTy).Contents (Elt Ideal)) (x4 : (⟨S40x128, .f32⟩ : BufTy).Contents (Elt Ideal))
    (x5 : (⟨S40, .f32⟩ : BufTy).Contents (Elt Ideal)) : Mat 50000 40 :=
  dense (M := 50000) (K := 128) (N := 40)
    (propagate (hidden (M := 50000) (K := 128) (N := 128) (propagate x0 x1) (val_main_v43 (F := Ideal) x2) x3) x1)
    (val_main_v88 (F := Ideal) x4) x5

/-- The reference's hidden stage is the hidden layer of its first aggregate. -/
theorem hidden_eq (x0 : Feat Ideal) (x1 : Edges Ideal) (x2 : (⟨S128x128, .f32⟩ : BufTy).Contents (Elt Ideal))
    (x3 : (⟨S128, .f32⟩ : BufTy).Contents (Elt Ideal)) :
    val_main_v48 (F := Ideal) x0 x1 x2 x3
      = hidden (M := 50000) (K := 128) (N := 128) (val_main_v42 (F := Ideal) x0 x1) (val_main_v43 (F := Ideal) x2) x3 := by
  unfold val_main_v48 val_main_v47 val_main_v44 val_main_v46 val_main_v45 val_main_call1_v0 val_main_call1_cst
  rw [hostDot_eq_prod dot_S50000x128_S128x128_S50000x128_1_0_0_1_n_n rfl, hostBias_eq, maximumf_host_zero]
  rfl

/-- The reference's result is the output layer of its second aggregate. -/
theorem out_eq (x0 : Feat Ideal) (x1 : Edges Ideal) (x2 : (⟨S128x128, .f32⟩ : BufTy).Contents (Elt Ideal))
    (x3 : (⟨S128, .f32⟩ : BufTy).Contents (Elt Ideal)) (x4 : (⟨S40x128, .f32⟩ : BufTy).Contents (Elt Ideal))
    (x5 : (⟨S40, .f32⟩ : BufTy).Contents (Elt Ideal)) :
    val_main_v92 (F := Ideal) x0 x1 x2 x3 x4 x5
      = dense (M := 50000) (K := 128) (N := 40) (val_main_v87 (F := Ideal) x0 x1 x2 x3) (val_main_v88 (F := Ideal) x4) x5 := by
  unfold val_main_v92 val_main_v89 val_main_v91 val_main_v90
  rw [hostDot_eq_prod dot_S50000x128_S128x40_S50000x40_1_0_0_1_n_n rfl, hostBias_eq]
  rfl

/-- THE REFERENCE'S RESULT is the network of its arguments. -/
theorem reference_eq (x0 : Feat Ideal) (x1 : Edges Ideal) (x2 : (⟨S128x128, .f32⟩ : BufTy).Contents (Elt Ideal))
    (x3 : (⟨S128, .f32⟩ : BufTy).Contents (Elt Ideal)) (x4 : (⟨S40x128, .f32⟩ : BufTy).Contents (Elt Ideal))
    (x5 : (⟨S40, .f32⟩ : BufTy).Contents (Elt Ideal)) :
    val_main_v92 (F := Ideal) x0 x1 x2 x3 x4 x5 = net x0 x1 x2 x3 x4 x5 := by
  rw [out_eq, second, hidden_eq, first]
  rfl

end Cert.ReferenceIdeal.RefValue

end
-- ==== Proof.KernelBlocks.lean ====
/-
  What each of the two row-tiled dense kernels leaves in its output array, as one function of its three operand arrays.

  Each kernel runs over ten grid points; point `t` loads rows `5000 t … 5000 t + 4999` of the feature matrix, the
  whole weight matrix and the whole bias vector, and stores the layer of that band of rows (the hidden layer with its
  rectifier in the first kernel, the plain dense layer in the second) as the same band of rows of the output. A layer
  treats every row alike, so the band it writes is the band of the layer applied to the whole feature matrix; the ten
  bands tile the 50000 rows, so the output array ends holding the layer of the whole feature matrix.

  Stated at any contents `V` of the buffers at the kernel's entry: the run instantiates it twice.
-/
import proofs.«171864_j40578851012868_1_alg».proof.Proof.Gen.KernelIdeal.Frame
import proofs.«171864_j40578851012868_1_alg».proof.Proof.Layers
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Lib.Rowwise Cert.Layers

theorem hz2 : (![0, 0] : Fin 2 → Nat) = fun _ => 0 := funext fun a => by fin_cases a <;> rfl
theorem hz1 : (![0] : Fin 1 → Nat) = fun _ => 0 := funext fun a => by fin_cases a <;> rfl

/-! ## The two bodies, on a band of 5000 rows -/

/-- The first kernel's stored value is the hidden layer of its loaded band: the casts to the narrower float format are
    the identity on the extended reals, the block product into the zero accumulator is the matrix product, the bias
    reshaped to one row and broadcast down the rows is the bias laid along every row, and the maximum with the zero
    splat is the rectifier. -/
theorem body0 (x : Vec Ideal S5000x128 .f32) (w : Vec Ideal S128x128 .f32) (b : Vec Ideal S128 .f32) :
    k0_pay1 x w b = hidden (M := 5000) (K := 128) (N := 128) x w b := by
  show maximumf (F := Ideal) (φ := .f32) (addf (F := Ideal) (φ := .f32) (matmul (F := Ideal) dot_S5000x128_S128x128_S5000x128_1_0_0_1_n_n none
        (truncf (F := Ideal) .bf16 (shapeCast S5000x128 (x : FVec Ideal S5000x128 .f32) shapeCasts_S5000x128_S5000x128) bitsLt_bf16_f32)
        (truncf (F := Ideal) .bf16 (shapeCast S128x128 (w : FVec Ideal S128x128 .f32) shapeCasts_S128x128_S128x128) bitsLt_bf16_f32)
        (constant S5000x128 .f32 0x00000000#32))
      (broadcastTo S5000x128 (shapeCast S1x128 (b : FVec Ideal S128 .f32) shapeCasts_S128_S1x128) broadcasts_S1x128_S5000x128))
      (broadcast S5000x128 (Scalar.ofBits (F := Ideal) .f32 0x00000000#32)) = _
  rw [shapeCast_self, shapeCast_self, truncf_id, truncf_id,
    matmul_eq_prod dot_S5000x128_S128x128_S5000x128_1_0_0_1_n_n rfl, broadcastTo_oneRow, oneRow_shapeCast]
  rfl

/-- The second kernel's stored value is the dense layer of its loaded band. -/
theorem body1 (x : Vec Ideal S5000x128 .f32) (w : Vec Ideal S128x40 .f32) (b : Vec Ideal S40 .f32) :
    k1_pay1 x w b = dense (M := 5000) (K := 128) (N := 40) x w b := by
  show addf (F := Ideal) (φ := .f32) (matmul (F := Ideal) dot_S5000x128_S128x40_S5000x40_1_0_0_1_n_n none
        (truncf (F := Ideal) .bf16 (shapeCast S5000x128 (x : FVec Ideal S5000x128 .f32) shapeCasts_S5000x128_S5000x128) bitsLt_bf16_f32)
        (truncf (F := Ideal) .bf16 (shapeCast S128x40 (w : FVec Ideal S128x40 .f32) shapeCasts_S128x40_S128x40) bitsLt_bf16_f32)
        (constant S5000x40 .f32 0x00000000#32))
      (broadcastTo S5000x40 (shapeCast S1x40 (b : FVec Ideal S40 .f32) shapeCasts_S40_S1x40) broadcasts_S1x40_S5000x40) = _
  rw [shapeCast_self, shapeCast_self, truncf_id, truncf_id,
    matmul_eq_prod dot_S5000x128_S128x40_S5000x40_1_0_0_1_n_n rfl, broadcastTo_oneRow, oneRow_shapeCast]
  rfl

variable (V : (c : Dev nD) → (b : Ref sig .tc) → Buf (Elt Ideal) ((c : Thread nD τ).loc b))

/-! ## The first kernel: the hidden layer -/

/-- The printed index maps, decided over the ten points: the feature window and the output window sit at band `t`,
    column block 0; the weight and bias windows at their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is band `t` of the hidden layer of the whole feature matrix: entry `(p, q)` of the
    stored block reads row `p` of the loaded band, which is row `5000 t + p` of the feature matrix, and that is the row
    entry `(5000 t + p, q)` of the whole layer reads. -/
theorem flushed0 (c : Dev nD) (t : Fin cfg0.N) :
    (dat0 V c).flushed 3 t = ((cfg0.win 3).blk t).view.read (Elt Ideal)
      (hidden (M := 50000) (K := 128) (N := 128) (V c main_v42) (V c main_v43) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [body0]
  obtain ⟨e0, e1, e2, e3, e4, e5, e6⟩ := idx_facts0 t
  funext j
  obtain ⟨p, q, rfl⟩ : ∃ (p : Fin 5000) (q : Fin 128), j = ix2 p q := ⟨j 0, j 1, eq_ix2 j⟩
  have hrow : 5000 * t.val + p.val < 50000 := by
    have h : t.val < 10 := lt_of_lt_of_eq t.isLt (show cfg0.N = 10 from N_0)
    have := p.isLt
    omega
  have hemb : ((cfg0.win 3).blk t).view.emb (ix2 p q) = ix2 (⟨5000 * t.val + p.val, hrow⟩ : Fin 50000) q :=
    funext fun a => Fin.ext (by
      match a with
      | ⟨0, _⟩ => show win0_3.index t (0 : Fin 2) * 5000 + 1 * p.val = 5000 * t.val + p.val; omega
      | ⟨1, _⟩ => show win0_3.index t (1 : Fin 2) * 128 + 1 * q.val = q.val; omega)
  have hx : ∀ k : Fin 128, iblk0 V c 0 t (ix2 p k) = V c main_v42 (ix2 (⟨5000 * t.val + p.val, hrow⟩ : Fin 50000) k) := fun k => by
    show V c main_v42 (((cfg0.win 0).blk t).view.emb (ix2 p k)) = _
    refine congrArg (V c main_v42) (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  have hw : ∀ k : Fin 128, iblk0 V c 1 t (ix2 k q) = V c main_v43 (ix2 k q) := fun k => by
    show V c main_v43 (((cfg0.win 1).blk t).view.emb (ix2 k q)) = _
    refine congrArg (V c main_v43) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have hb : iblk0 V c 2 t (ix1 q) = V c main_arg3 (ix1 q) := by
    show V c main_arg3 (((cfg0.win 2).blk t).view.emb (ix1 q)) = _
    refine congrArg (V c main_arg3) (funext fun a => Fin.ext ?_)
    match a with
    | ⟨0, _⟩ => show win0_2.index t (0 : Fin 1) * 128 + 1 * q.val = q.val; omega
  show hidden (M := 5000) (K := 128) (N := 128) (iblk0 V c 0 t) (iblk0 V c 1 t) (iblk0 V c 2 t) (ix2 p q)
    = hidden (M := 50000) (K := 128) (N := 128) (V c main_v42) (V c main_v43) (V c main_arg3) (((cfg0.win 3).blk t).view.emb (ix2 p q))
  rw [hemb]
  refine (hidden_apply (M := 5000) (iblk0 V c 0 t) (iblk0 V c 1 t) (iblk0 V c 2 t) p q).trans ?_
  refine Eq.trans ?_ (hidden_apply (M := 50000) (V c main_v42) (V c main_v43) (V c main_arg3) ⟨5000 * t.val + p.val, hrow⟩ q).symm
  rw [hb, Finset.sum_congr rfl fun k _ => by rw [hx k, hw k]]

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v44).slice (win0_3.rect t)).set ↔ _
  rw [View.set_slice_whole, Rect.mem_set_unit]
  exact Iff.rfl

/-- The ten bands cover the 50000 rows: row `r` lies in band `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < cfg0.N := by rw [show cfg0.N = 10 from N_0]; omega
  obtain ⟨-, -, -, -, -, e5, e6⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e5]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e6]; omega

/-- THE FIRST KERNEL'S OUTPUT ARRAY after its ten points: the hidden layer of the whole feature matrix as the kernel
    finds it, with the weights and the bias as it finds them. -/
theorem final0 (c : Dev nD) : (dat0 V c).arrAt 3 cfg0.N
    = hidden (M := 50000) (K := 128) (N := 128) (V c main_v42) (V c main_v43) (V c main_arg3) :=
  (dat0 V c).arrAt_eq_of_cover 3 _ (fun t _ => flushed0 V c t) cover0

/-! ## The second kernel: the output layer -/

/-- The printed index maps of the second kernel, decided over its ten points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- WHAT POINT `t` WRITES BACK is band `t` of the dense layer of the whole feature matrix. -/
theorem flushed1 (c : Dev nD) (t : Fin cfg1.N) :
    (dat1 V c).flushed 3 t = ((cfg1.win 3).blk t).view.read (Elt Ideal)
      (dense (M := 50000) (K := 128) (N := 40) (V c main_v83) (V c main_v84) (V c main_arg5)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x40) hz2, View.ld_unit_zero (S := S40) hz1]
  rw [body1]
  obtain ⟨e0, e1, e2, e3, e4, e5, e6⟩ := idx_facts1 t
  funext j
  obtain ⟨p, q, rfl⟩ : ∃ (p : Fin 5000) (q : Fin 40), j = ix2 p q := ⟨j 0, j 1, eq_ix2 j⟩
  have hrow : 5000 * t.val + p.val < 50000 := by
    have h : t.val < 10 := lt_of_lt_of_eq t.isLt (show cfg1.N = 10 from N_1)
    have := p.isLt
    omega
  have hemb : ((cfg1.win 3).blk t).view.emb (ix2 p q) = ix2 (⟨5000 * t.val + p.val, hrow⟩ : Fin 50000) q :=
    funext fun a => Fin.ext (by
      match a with
      | ⟨0, _⟩ => show win1_3.index t (0 : Fin 2) * 5000 + 1 * p.val = 5000 * t.val + p.val; omega
      | ⟨1, _⟩ => show win1_3.index t (1 : Fin 2) * 40 + 1 * q.val = q.val; omega)
  have hx : ∀ k : Fin 128, iblk1 V c 0 t (ix2 p k) = V c main_v83 (ix2 (⟨5000 * t.val + p.val, hrow⟩ : Fin 50000) k) := fun k => by
    show V c main_v83 (((cfg1.win 0).blk t).view.emb (ix2 p k)) = _
    refine congrArg (V c main_v83) (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  have hw : ∀ k : Fin 128, iblk1 V c 1 t (ix2 k q) = V c main_v84 (ix2 k q) := fun k => by
    show V c main_v84 (((cfg1.win 1).blk t).view.emb (ix2 k q)) = _
    refine congrArg (V c main_v84) (funext fun a => Fin.ext ?_)
    match a with
    | ⟨0, _⟩ => show win1_1.index t (0 : Fin 2) * 128 + 1 * k.val = k.val; omega
    | ⟨1, _⟩ => show win1_1.index t (1 : Fin 2) * 40 + 1 * q.val = q.val; omega
  have hb : iblk1 V c 2 t (ix1 q) = V c main_arg5 (ix1 q) := by
    show V c main_arg5 (((cfg1.win 2).blk t).view.emb (ix1 q)) = _
    refine congrArg (V c main_arg5) (funext fun a => Fin.ext ?_)
    match a with
    | ⟨0, _⟩ => show win1_2.index t (0 : Fin 1) * 40 + 1 * q.val = q.val; omega
  show dense (M := 5000) (K := 128) (N := 40) (iblk1 V c 0 t) (iblk1 V c 1 t) (iblk1 V c 2 t) (ix2 p q)
    = dense (M := 50000) (K := 128) (N := 40) (V c main_v83) (V c main_v84) (V c main_arg5) (((cfg1.win 3).blk t).view.emb (ix2 p q))
  rw [hemb]
  refine (dense_apply (M := 5000) (iblk1 V c 0 t) (iblk1 V c 1 t) (iblk1 V c 2 t) p q).trans ?_
  refine Eq.trans ?_ (dense_apply (M := 50000) (V c main_v83) (V c main_v84) (V c main_arg5) ⟨5000 * t.val + p.val, hrow⟩ q).symm
  rw [hb, Finset.sum_congr rfl fun k _ => by rw [hx k, hw k]]

/-- An index of the second output array is in point `t`'s block iff each coordinate is in the block's range. -/
theorem mem_blk1 (t : Fin cfg1.N) (i : S50000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v85).slice (win1_3.rect t)).set ↔ _
  rw [View.set_slice_whole, Rect.mem_set_unit]
  exact Iff.rfl

/-- The ten bands cover the 50000 rows of the second output. -/
theorem cover1 (i : S50000x40.Idx) :
    ∃ t : Fin cfg1.N, (cfg1.win 3).flush t = true ∧ i ∈ ((cfg1.win 3).blk t).view.set := by
  have hi0 : (i 0).val < 50000 := (i 0).isLt
  have hi1 : (i 1).val < 40 := (i 1).isLt
  have hlt : (i 0).val / 5000 < cfg1.N := by rw [show cfg1.N = 10 from N_1]; omega
  obtain ⟨-, -, -, -, -, e5, e6⟩ := idx_facts1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, hlt⟩ (1 : Fin 2) * 40 ≤ (i 1).val
      ∧ (i 1).val < win1_3.index ⟨(i 0).val / 5000, hlt⟩ (1 : Fin 2) * 40 + 40
    rw [e6]; omega

/-- THE SECOND KERNEL'S OUTPUT ARRAY after its ten points: the dense layer of the whole feature matrix as the kernel
    finds it, with the weights and the bias as it finds them. -/
theorem final1 (c : Dev nD) : (dat1 V c).arrAt 3 cfg1.N
    = dense (M := 50000) (K := 128) (N := 40) (V c main_v83) (V c main_v84) (V c main_arg5) :=
  (dat1 V c).arrAt_eq_of_cover 3 _ (fun t _ => flushed1 V c t) cover1

end Cert.KernelIdeal.Blocks

end
-- ==== Proof.KernelHost.lean ====
/-
  The kernel program's result as the two-layer network over the propagation.

  Between the launch and the first dense kernel the host computes the propagation of the input features and the
  transposed first weight matrix; the first kernel leaves the hidden layer of that aggregate; the host then propagates
  the hidden layer's result (over the same edge rows, which it kept from the first stretch) and transposes the second
  weight matrix; the second kernel leaves the output layer. Reading each host stretch's buffers back through its
  operations, and each kernel's output array as its layer of the arrays it finds, the result buffer ends at the network
  of the launch arguments: the same function the reference computes.

  Each host stretch is read in three steps, as it is printed: the node lists with their self-loops (two concatenations)
  and the degree counts; the inverse square roots of the degrees, zero where the degree is not positive; and the gather,
  scaling and scatter-add, which read the first two steps' results and are the named propagation of them.
-/
import proofs.«171864_j40578851012868_1_alg».proof.Proof.KernelBlocks
import proofs.«171864_j40578851012868_1_alg».proof.Proof.RefValue

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo
open Cert.Lib.Rowwise Cert.Layers Cert.Propagate Cert.KernelIdeal.Blocks
open Cert.ReferenceIdeal.ReadP (val_main_v43 val_main_v88 val_main_v1 val_main_v3 val_main_v5 val_main_v6 val_main_v14)
open Cert.ReferenceIdeal.RefValue (net)

section Stretches

variable {F : FTy → Type} [FloatOps F]

/-! ## The last step of a stretch, over any contents of the buffers it reads -/

/-- The gather, scaling and scatter-add of the first stretch are the propagation of the feature matrix they find, given
    that the node lists and the inverse-square-root degrees they find are the edge array's. -/
theorem spread0 (W : Valuation τ sig (Elt F)) (x : Feat F) (e : Edges F)
    (hx : W (Proc.devRef .tc main_arg0) = x) (hs : W (Proc.devRef .tc main_v5) = val_main_v5 (F := F) e)
    (hd : W (Proc.devRef .tc main_v6) = val_main_v6 (F := F) e) (hn : W (Proc.devRef .tc main_v14) = val_main_v14 (F := F) e) :
    StableHlo.after hostOps0_2 W (Proc.devRef .tc main_v42) = propagate x e := by
  dsimp only [hostOps0_2]
  after_results_simp
  rw [hx, hs, hd, hn]
  rfl

/-- The same for the second stretch, whose feature matrix is the first kernel's output. -/
theorem spread1 (W : Valuation τ sig (Elt F)) (x : Feat F) (e : Edges F)
    (hx : W (Proc.devRef .tc main_v44) = x) (hs : W (Proc.devRef .tc main_v46) = val_main_v5 (F := F) e)
    (hd : W (Proc.devRef .tc main_v47) = val_main_v6 (F := F) e) (hn : W (Proc.devRef .tc main_v55) = val_main_v14 (F := F) e) :
    StableHlo.after hostOps1_2 W (Proc.devRef .tc main_v83) = propagate x e := by
  dsimp only [hostOps1_2]
  after_results_simp
  rw [hx, hs, hd, hn]
  rfl

variable (m : (ℓ : Loc nD τ sig) → Buf (Elt F) ℓ) (ρ : Dev nD → PrngReg)

/-! ## The first stretch -/

theorem w2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  dsimp only [hostOps0, hostOps0_1]
  after_results_simp

/-- The source nodes with the self-loops appended. -/
theorem w2_src (c : Dev nD) :
    W2 m ρ c (Proc.devRef .tc main_v5) = val_main_v5 (F := F) (m ((c : Thread nD τ).loc main_arg1)) := by
  show StableHlo.after hostOps0_1 (StableHlo.after hostOps0 (W0 m ρ c)) (Proc.devRef .tc main_v5) = _
  dsimp only [hostOps0, hostOps0_1]
  after_results
  rfl

/-- The destination nodes with the self-loops appended. -/
theorem w2_dst (c : Dev nD) :
    W2 m ρ c (Proc.devRef .tc main_v6) = val_main_v6 (F := F) (m ((c : Thread nD τ).loc main_arg1)) := by
  show StableHlo.after hostOps0_1 (StableHlo.after hostOps0 (W0 m ρ c)) (Proc.devRef .tc main_v6) = _
  dsimp only [hostOps0, hostOps0_1]
  after_results
  rfl

set_option maxHeartbeats 4000000 in
/-- The inverse square roots of the degrees, zero where the degree is not positive. -/
theorem w2_dinv (c : Dev nD) :
    W2 m ρ c (Proc.devRef .tc main_v14) = val_main_v14 (F := F) (m ((c : Thread nD τ).loc main_arg1)) := by
  show StableHlo.after hostOps0_1 (StableHlo.after hostOps0 (W0 m ρ c)) (Proc.devRef .tc main_v14) = _
  dsimp only [hostOps0, hostOps0_1]
  after_results
  rfl

/-- The first kernel finds the propagation of the input features … -/
theorem entry0_feat (c : Dev nD) :
    V3 m ρ c main_v42 = propagate (m ((c : Thread nD τ).loc main_arg0)) (m ((c : Thread nD τ).loc main_arg1)) :=
  spread0 (W2 m ρ c) _ _ (w2_arg0 m ρ c) (w2_src m ρ c) (w2_dst m ρ c) (w2_dinv m ρ c)

/-- … the transposed first weight matrix … -/
theorem entry0_w (c : Dev nD) :
    V3 m ρ c main_v43 = val_main_v43 (F := F) (m ((c : Thread nD τ).loc main_arg2)) := by
  show StableHlo.after hostOps0_2 (StableHlo.after hostOps0_1 (StableHlo.after hostOps0 (W0 m ρ c))) (Proc.devRef .tc main_v43) = _
  dsimp only [hostOps0, hostOps0_1, hostOps0_2]
  after_results_simp
  rfl

/-- … and the first bias as launched. -/
theorem entry0_b (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp

/-- The edge rows the first stretch cut out of the edge array, and the arguments the second stretch and kernel read. -/
theorem entry0_src (c : Dev nD) :
    W3 m ρ c (Proc.devRef .tc main_v1) = val_main_v1 (F := F) (m ((c : Thread nD τ).loc main_arg1)) := by
  show StableHlo.after hostOps0_2 (StableHlo.after hostOps0_1 (StableHlo.after hostOps0 (W0 m ρ c))) (Proc.devRef .tc main_v1) = _
  dsimp only [hostOps0, hostOps0_1, hostOps0_2]
  after_results_simp
  rfl
theorem entry0_dst (c : Dev nD) :
    W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  rfl
theorem entry0_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp
theorem entry0_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp

/-! ## The second stretch -/

theorem w6_feat (c : Dev nD) : W6 m ρ c (Proc.devRef .tc main_v44) = W4 m ρ c (Proc.devRef .tc main_v44) := by
  show StableHlo.after hostOps1_1 (StableHlo.after hostOps1 (W4 m ρ c)) (Proc.devRef .tc main_v44) = _
  dsimp only [hostOps1, hostOps1_1]
  after_results_simp

/-- The source nodes with the self-loops appended, again. -/
theorem w6_src (c : Dev nD) :
    W6 m ρ c (Proc.devRef .tc main_v46) = val_main_v5 (F := F) (m ((c : Thread nD τ).loc main_arg1)) := by
  show StableHlo.after hostOps1_1 (StableHlo.after hostOps1 (W4 m ρ c)) (Proc.devRef .tc main_v46) = _
  dsimp only [hostOps1, hostOps1_1]
  after_results
  rw [W4_of_ne m ρ c main_v1 (by decide), entry0_src]
  rfl

/-- The destination nodes with the self-loops appended, again. -/
theorem w6_dst (c : Dev nD) :
    W6 m ρ c (Proc.devRef .tc main_v47) = val_main_v6 (F := F) (m ((c : Thread nD τ).loc main_arg1)) := by
  show StableHlo.after hostOps1_1 (StableHlo.after hostOps1 (W4 m ρ c)) (Proc.devRef .tc main_v47) = _
  dsimp only [hostOps1, hostOps1_1]
  after_results
  rw [W4_of_ne m ρ c main_v3 (by decide), entry0_dst]
  rfl

set_option maxHeartbeats 4000000 in
/-- The inverse square roots of the degrees, again. -/
theorem w6_dinv (c : Dev nD) :
    W6 m ρ c (Proc.devRef .tc main_v55) = val_main_v14 (F := F) (m ((c : Thread nD τ).loc main_arg1)) := by
  show StableHlo.after hostOps1_1 (StableHlo.after hostOps1 (W4 m ρ c)) (Proc.devRef .tc main_v55) = _
  dsimp only [hostOps1, hostOps1_1]
  after_results
  rw [W4_of_ne m ρ c main_v3 (by decide), entry0_dst]
  rfl

/-- The second kernel finds the propagation of the first kernel's output … -/
theorem entry1_feat (c : Dev nD) :
    V7 m ρ c main_v83 = propagate (W4 m ρ c (Proc.devRef .tc main_v44)) (m ((c : Thread nD τ).loc main_arg1)) :=
  spread1 (W6 m ρ c) _ _ (w6_feat m ρ c) (w6_src m ρ c) (w6_dst m ρ c) (w6_dinv m ρ c)

/-- … the transposed second weight matrix … -/
theorem entry1_w (c : Dev nD) :
    V7 m ρ c main_v84 = val_main_v88 (F := F) (m ((c : Thread nD τ).loc main_arg4)) := by
  show StableHlo.after hostOps1_2 (StableHlo.after hostOps1_1 (StableHlo.after hostOps1 (W4 m ρ c))) (Proc.devRef .tc main_v84) = _
  dsimp only [hostOps1, hostOps1_1, hostOps1_2]
  after_results_simp
  rw [W4_of_ne m ρ c main_arg4 (by decide), entry0_arg4]
  rfl

/-- … and the second bias as launched. -/
theorem entry1_b (c : Dev nD) : V7 m ρ c main_arg5 = m ((c : Thread nD τ).loc main_arg5) := by
  show StableHlo.after hostOps1_2 (StableHlo.after hostOps1_1 (StableHlo.after hostOps1 (W4 m ρ c))) (Proc.devRef .tc main_arg5) = _
  dsimp only [hostOps1, hostOps1_1, hostOps1_2]
  after_results_simp
  rw [W4_of_ne m ρ c main_arg5 (by decide), entry0_arg5]

end Stretches

/-! ## The two kernels and the result, over the extended reals -/

variable (m : (ℓ : Loc nD τ sig) → Buf (Elt Ideal) ℓ) (ρ : Dev nD → PrngReg)

/-- What the first kernel leaves in its output array: the hidden layer of the propagated input features. -/
theorem exit0 (c : Dev nD) :
    W4 m ρ c (Proc.devRef .tc main_v44)
      = hidden (M := 50000) (K := 128) (N := 128)
          (propagate (F := Ideal) (m ((c : Thread nD τ).loc main_arg0)) (m ((c : Thread nD τ).loc main_arg1)))
          (val_main_v43 (F := Ideal) (m ((c : Thread nD τ).loc main_arg2))) (m ((c : Thread nD τ).loc main_arg3)) := by
  refine (W4_arr m ρ c 3).trans ((final0 (V3 m ρ) c).trans ?_)
  rw [entry0_feat, entry0_w, entry0_b]

/-- THE RESULT BUFFER after the last segment holds the network of the launch arguments. -/
theorem result (c : Dev nD) :
    W8 m ρ c (Proc.devRef .tc main_v85)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W8_arr m ρ c 3).trans ((final1 (V7 m ρ) c).trans ?_)
  rw [entry1_feat, entry1_w, entry1_b, exit0]
  rfl

end Cert.KernelIdeal.Host

end
-- ==== Proof.lean ====
/-
  Two-layer graph convolution: a Pallas program with two row-tiled dense kernels against its plain reference.

  Both programs compute `dense₂ (P (hidden₁ (P x)))`: `P` is the normalized propagation along the edge list with
  self-loops (a gather of source rows, a scaling by the endpoints' inverse-square-root degrees, a scatter-add into
  destination rows), run on the host by both programs with the same operations; `hidden₁ a = max (a · W₁ᵀ + b₁, 0)` and
  `dense₂ a = a · W₂ᵀ + b₂` are the two linear stages. The reference computes each linear stage as one host product over
  all 50000 rows; the kernel program computes it in a kernel over ten bands of 5000 rows, casting the operands to a
  narrower float format first. Over the extended reals the format change is the identity and the block product is the
  matrix product, and a linear stage treats every row alike, so the ten bands written back are the bands of the stage
  applied to the whole matrix: the two programs end with the same array. No algebraic law beyond reading the sums is
  used, so the precondition is never opened.

  The three frames: the two kernel programs' are the generated frame certificates; the reference's is its run with the
  result dropped. The idealization pass rewrote nothing, so `preserves` is trivial.
-/
import proofs.«171864_j40578851012868_1_alg».proof.Defs
import proofs.«171864_j40578851012868_1_alg».proof.Proof.Gen.Kernel
import proofs.«171864_j40578851012868_1_alg».proof.Proof.Gen.Kernel.Skeleton
import proofs.«171864_j40578851012868_1_alg».proof.Proof.Gen.Kernel.Launch
import proofs.«171864_j40578851012868_1_alg».proof.Proof.Gen.Kernel.Points
import proofs.«171864_j40578851012868_1_alg».proof.Proof.Gen.Kernel.Frame
import proofs.«171864_j40578851012868_1_alg».proof.Proof.Gen.KernelIdeal
import proofs.«171864_j40578851012868_1_alg».proof.Proof.Gen.KernelIdeal.Skeleton
import proofs.«171864_j40578851012868_1_alg».proof.Proof.Gen.KernelIdeal.Launch
import proofs.«171864_j40578851012868_1_alg».proof.Proof.Gen.KernelIdeal.Points
import proofs.«171864_j40578851012868_1_alg».proof.Proof.Gen.KernelIdeal.Frame
import proofs.«171864_j40578851012868_1_alg».proof.Proof.Gen.ReferenceIdeal
import proofs.«171864_j40578851012868_1_alg».proof.Proof.Gen.Pre_finite_inputs
import proofs.«171864_j40578851012868_1_alg».proof.Proof.RefRun
import proofs.«171864_j40578851012868_1_alg».proof.Proof.RefRead
import proofs.«171864_j40578851012868_1_alg».proof.Proof.RefValue
import proofs.«171864_j40578851012868_1_alg».proof.Proof.KernelRun
import proofs.«171864_j40578851012868_1_alg».proof.Proof.KernelHost
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the arguments in their result buffer: the kernel program by its run with the
    result named and the reading of its host stretches and kernels, the reference by its run and the reading of its
    stages; the arguments agree, so the two arrays are one. -/
theorem algebraic : Cert.algebraic_KernelIdeal_ReferenceIdeal := by
  intro m ρ m' ρ' _ hagree
  refine ⟨fun c => Cert.ReferenceIdeal.RefValue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Host.result m ρ c), (h c).2⟩)
      (Cert.KernelIdeal.Run.run_result (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v92_eq, Cert.ReferenceIdeal.RefValue.reference_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
